-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S2048x4096 : Shape := ⟨2, ![2048, 4096]⟩
abbrev S128x4096 : Shape := ⟨2, ![128, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S128x4096 : S_.BroadcastsInDim S128x4096 (![] : Fin 0 → Fin S128x4096.rank)
  reducesTo_S128x4096_S_d0_1 : S128x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4096x4096 .f32) (main_arg1 : IVec S2048x4096 32) (main_arg2 : FVec F S128x4096 .f32) (main_arg3 : FVec F S128x4096 .f32) (main_arg4 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S128x4096 .f32 := Host.absf main_arg2
  let main_cst_0 : FVec F S_ .f32 := constant S_ .f32 0x7F800000#32
  let main_v5 : FVec F S128x4096 .f32 := broadcastInDim S128x4096 ![] bcast_S_S128x4096 main_cst_0
  let main_v6 : IVec S128x4096 1 := cmpf .olt main_v4 main_v5
  let main_c_1 : IVec S_ 1 := constantI S_ 1 1#1
  let main_v7 : IVec S_ 1 := (fun x v => Host.reduce IntOp.andi x v reducesTo_S128x4096_S_d0_1 h_S_) main_v6 main_c_1
  let main_v8 : IVec S_ 1 := andi main_v3 main_v7
  let main_v9 : FVec F S128x4096 .f32 := Host.absf main_arg3
  let main_cst_2 : FVec F S_ .f32 := constant S_ .f32 0x7F800000#32
  let main_v10 : FVec F S128x4096 .f32 := broadcastInDim S128x4096 ![] bcast_S_S128x4096 main_cst_2
  let main_v11 : IVec S128x4096 1 := cmpf .olt main_v9 main_v10
  let main_c_3 : IVec S_ 1 := constantI S_ 1 1#1
  let main_v12 : IVec S_ 1 := (fun x v => Host.reduce IntOp.andi x v reducesTo_S128x4096_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4096x4096 : Shape := ⟨2, ![4096, 4096]⟩
abbrev S2048x4096 : Shape := ⟨2, ![2048, 4096]⟩
abbrev S128x4096 : Shape := ⟨2, ![128, 4096]⟩
abbrev S4096 : Shape := ⟨1, ![4096]⟩
abbrev S4096x2048x2 : Shape := ⟨3, ![4096, 2048, 2]⟩
abbrev S4096x2048x1 : Shape := ⟨3, ![4096, 2048, 1]⟩
abbrev S4096x2048 : Shape := ⟨2, ![4096, 2048]⟩
abbrev S1x4096 : Shape := ⟨2, ![1, 4096]⟩
abbrev S1024x512 : Shape := ⟨2, ![1024, 512]⟩
abbrev S512x1024 : Shape := ⟨2, ![512, 1024]⟩
abbrev S32x1024 : Shape := ⟨2, ![32, 1024]⟩
abbrev S1x1024 : Shape := ⟨2, ![1, 1024]⟩
abbrev S1024x1024 : Shape := ⟨2, ![1024, 1024]⟩
abbrev S32x1x1024 : Shape := ⟨3, ![32, 1, 1024]⟩
abbrev S32x16x1024 : Shape := ⟨3, ![32, 16, 1024]⟩

abbrev nBuf : Space → Nat
  | .hbm => 13
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S2048x4096, .i32⟩
  | .hbm, ⟨2, _⟩ => ⟨S128x4096, .f32⟩
  | .hbm, ⟨3, _⟩ => ⟨S128x4096, .f32⟩
  | .hbm, ⟨4, _⟩ => ⟨S4096, .f32⟩
  | .hbm, ⟨5, _⟩ => ⟨S4096x4096, .bf16⟩
  | .hbm, ⟨6, _⟩ => ⟨S4096x2048x2, .bf16⟩
  | .hbm, ⟨7, _⟩ => ⟨S4096x2048x1, .bf16⟩
  | .hbm, ⟨8, _⟩ => ⟨S4096x2048, .bf16⟩
  | .hbm, ⟨9, _⟩ => ⟨S4096x2048x1, .bf16⟩
  | .hbm, ⟨10, _⟩ => ⟨S4096x2048, .bf16⟩
  | .hbm, ⟨11, _⟩ => ⟨S1x4096, .f32⟩
  | .hbm, ⟨12, _⟩ => ⟨S4096x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .i32⟩
  | .local _ .vmem, ⟨5, _⟩ => ⟨S512x1024, .i32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v44 : BitVec 1 := Scalar.cmpi .eq arg2 c3_i32
  let v45 : BitVec 32 := Scalar.extui v44
  let c0_i32_20 : BitVec 32 := 0#32
  let v46 : BitVec 1 := Scalar.cmpi .ne v45 c0_i32_20
  v46

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  bitsLt_bf16_f32 : FTy.bits .bf16 < FTy.bits .f32
  shapeCasts_S4096x4096_S4096x2048x2 : S4096x4096.ShapeCasts S4096x2048x2
  slices_S4096x2048x2_S4096x2048x1_0_0_0 : S4096x2048x2.Slices ![0, 0, 0] S4096x2048x1
  shapeCasts_S4096x2048x1_S4096x2048 : S4096x2048x1.ShapeCasts S4096x2048
  slices_S4096x2048x2_S4096x2048x1_0_0_1 : S4096x2048x2.Slices ![0, 0, 1] S4096x2048x1
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  inb_S32x1024_S32x1024_0_0 : ∀ a, (![0, 0] : Fin 2 → Nat) a + S32x1024.size a ≤ S32x1024.size a
  h_S32x1024 : 0 < S32x1024.numel
  shapeCasts_S32x1024_S32x1x1024 : S32x1024.ShapeCasts S32x1x1024
  shapeCasts_S32x1x1024_S32x1x1024 : S32x1x1024.ShapeCasts S32x1x1024
  broadcasts_S32x1x1024_S32x16x1024 : S32x1x1024.Broadcasts S32x16x1024
  shapeCasts_S32x16x1024_S512x1024 : S32x16x1024.ShapeCasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x2048.size a
  hwx0_0 : ∀ i : grid0.Coords, EltTy.bits .bf16 = 32 ∨ (Rect.block (s := S4096x2048) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x2048.size a
  hwx0_1 : ∀ i : grid0.Coords, EltTy.bits .bf16 = 32 ∨ (Rect.block (s := S4096x2048) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x4096.size a
  hwx0_2 : ∀ i : grid0.Coords, EltTy.bits .i32 = 32 ∨ (Rect.block (s := S2048x4096) S512x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1024.size a ≤ S128x4096.size a
  hwx0_3 : ∀ i : grid0.Coords, EltTy.bits .f32 = 32 ∨ (Rect.block (s := S128x4096) S32x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1024.size a ≤ S128x4096.size a
  hwx0_4 : ∀ i : grid0.Coords, EltTy.bits .f32 = 32 ∨ (Rect.block (s := S128x4096) S32x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S4096x4096.size a
  hwx0_6 : ∀ i : grid0.Coords, EltTy.bits .f32 = 32 ∨ (Rect.block (s := S4096x4096) S1024x1024.size (cc0_transform_6 i) (hinb0_6 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v3) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S32x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x4096 : Shape := ⟨2, ![4096, 4096]⟩
abbrev S2048x4096 : Shape := ⟨2, ![2048, 4096]⟩
abbrev S128x4096 : Shape := ⟨2, ![128, 4096]⟩
abbrev S4096 : Shape := ⟨1, ![4096]⟩
abbrev S_ : Shape := ⟨0, ![]⟩
abbrev S2048x1x4096 : Shape := ⟨3, ![2048, 1, 4096]⟩
abbrev S2048x2x4096 : Shape := ⟨3, ![2048, 2, 4096]⟩
abbrev S128x32x4096 : Shape := ⟨3, ![128, 32, 4096]⟩
abbrev S1x4096 : Shape := ⟨2, ![1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S2048x4096, .i32⟩
  | .hbm, ⟨2, _⟩ => ⟨S128x4096, .f32⟩
  | .hbm, ⟨3, _⟩ => ⟨S128x4096, .f32⟩
  | .hbm, ⟨4, _⟩ => ⟨S4096, .f32⟩
  | .hbm, ⟨5, _⟩ => ⟨S_, .i32⟩
  | .hbm, ⟨6, _⟩ => ⟨S2048x4096, .i32⟩
  | .hbm, ⟨7, _⟩ => ⟨S2048x4096, .i32⟩
  | .hbm, ⟨8, _⟩ => ⟨S_, .i32⟩
  | .hbm, ⟨9, _⟩ => ⟨S2048x4096, .i32⟩
  | .hbm, ⟨10, _⟩ => ⟨S2048x4096, .i32⟩
  | .hbm, ⟨11, _⟩ => ⟨S_, .i32⟩
  | .hbm, ⟨12, _⟩ => ⟨S2048x4096, .i32⟩
  | .hbm, ⟨13, _⟩ => ⟨S2048x4096, .i32⟩
  | .hbm, ⟨14, _⟩ => ⟨S2048x1x4096, .i32⟩
  | .hbm, ⟨15, _⟩ => ⟨S2048x1x4096, .i32⟩
  | .hbm, ⟨16, _⟩ => ⟨S2048x2x4096, .i32⟩
  | .hbm, ⟨17, _⟩ => ⟨S4096x4096, .i32⟩
  | .hbm, ⟨18, _⟩ => ⟨S4096x4096, .f32⟩
  | .hbm, ⟨19, _⟩ => ⟨S128x32x4096, .f32⟩
  | .hbm, ⟨20, _⟩ => ⟨S4096x4096, .f32⟩
  | .hbm, ⟨21, _⟩ => ⟨S128x32x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S1x4096, .f32⟩
  | .hbm, ⟨27, _⟩ => ⟨S4096x4096, .f32⟩
  | .hbm, ⟨28, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S_S2048x4096 : S_.BroadcastsInDim S2048x4096 (![] : Fin 0 → Fin S2048x4096.rank)
  bcast_S2048x4096_S2048x1x4096_0_2 : S2048x4096.BroadcastsInDim S2048x1x4096 (![0, 2] : Fin 2 → Fin S2048x1x4096.rank)
  concatenates_S2048x1x4096_S2048x1x4096_S2048x2x4096_d1 : Shape.Concatenates [S2048x1x4096, S2048x1x4096] S2048x2x4096 1
  shapeCasts_S2048x2x4096_S4096x4096 : S2048x2x4096.ShapeCasts S4096x4096
  bcast_S128x4096_S128x32x4096_0_2 : S128x4096.BroadcastsInDim S128x32x4096 (![0, 2] : Fin 2 → Fin S128x32x4096.rank)
  shapeCasts_S128x32x4096_S4096x4096 : S128x32x4096.ShapeCasts S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
/-
  What one grid point leaves behind, as values.

  The body keeps a running sum in a scratch block carried from point to point. At every point it adds to that block
  the product of the even-column block of `x` with the dequantized low nibbles, and then the product of the odd-column
  block with the dequantized high nibbles (`step`). At the first point of a run of four it first stores zeros, so the
  update starts from the zero block; at the last point it also writes the scratch plus the bias row to the output block.
  Each store covers its whole buffer, so what a buffer holds afterwards is the payload of the last store into it,
  and a load that follows a store reads that store's payload.
-/
import proofs.«423189_j47296179864027_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A load through the whole-shape rectangle, after stores of which the LAST went through that rectangle, reads that
    last store's payload, whatever the earlier stores were. -/
theorem readCov_cons_whole {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl,
    View.ld_unit_zero rfl]

/-- One point's update of the running sum `acc`: add the even-column block times the low-nibble weights, then the
    odd-column block times the high-nibble weights. -/
def step (x0 x1 : Vec F S1024x512 .bf16) (x2 : Vec F S512x1024 .i32) (x3 x4 : Vec F S32x1024 .f32)
    (acc : Vec F S1024x1024 .f32) : Vec F S1024x1024 .f32 :=
  k0_pay1 (k0_pay7 x2 x3 x4) (k0_pay6 x2 x3 x4 acc x0) x1

/-- At a middle point of a run the scratch ends at the update of what the point before left. -/
theorem sout_B (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x1024 .i32) (harg5 : arg5.IsWhole) (arg6 : Memref sig .tc .vmem S32x1024 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : ¬cond0_1 i) (x0 : Vec F S1024x512 .bf16) (x1 : Vec F S1024x512 .bf16) (x2 : Vec F S512x1024 .i32) (x3 : Vec F S32x1024 .f32) (x4 : Vec F S32x1024 .f32) (x5 : Vec F S1x1024 .f32) (xs0 : Vec F S1024x1024 .f32) :
    sout0_B_0 c i arg3 harg3 arg4 harg4 arg5 harg5 arg6 harg6 arg7 harg7 arg8 harg8 arg9 harg9 arg10 harg10 hc0 hc1 x0 x1 x2 x3 x4 x5 xs0 = step x0 x1 x2 x3 x4 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_cons_unit_zero (S := S1024x1024) hz]
  simp only [View.readAt_eq_ld, harg3.read_unread, harg4.read_unread, harg5.read_unread, harg6.read_unread,
    harg7.read_unread, harg10.read_unread, View.ld_unit_zero (S := S1024x512) hz, View.ld_unit_zero (S := S512x1024) hz,
    View.ld_unit_zero (S := S32x1024) hz, View.ld_unit_zero (S := S1024x1024) hz,
    readCov_cons_whole (S := S1024x1024) _ hz, step]

/-- At the last point of a run the scratch ends at the same update. -/
theorem sout_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x1024 .i32) (harg5 : arg5.IsWhole) (arg6 : Memref sig .tc .vmem S32x1024 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i) (x0 : Vec F S1024x512 .bf16) (x1 : Vec F S1024x512 .bf16) (x2 : Vec F S512x1024 .i32) (x3 : Vec F S32x1024 .f32) (x4 : Vec F S32x1024 .f32) (x5 : Vec F S1x1024 .f32) (xs0 : Vec F S1024x1024 .f32) :
    sout0_C_0 c i arg3 harg3 arg4 harg4 arg5 harg5 arg6 harg6 arg7 harg7 arg8 harg8 arg9 harg9 arg10 harg10 hc0 hc1 x0 x1 x2 x3 x4 x5 xs0 = step x0 x1 x2 x3 x4 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_cons_unit_zero (S := S1024x1024) hz]
  simp only [View.readAt_eq_ld, harg3.read_unread, harg4.read_unread, harg5.read_unread, harg6.read_unread,
    harg7.read_unread, harg10.read_unread, View.ld_unit_zero (S := S1024x512) hz, View.ld_unit_zero (S := S512x1024) hz,
    View.ld_unit_zero (S := S32x1024) hz, View.ld_unit_zero (S := S1024x1024) hz,
    readCov_cons_whole (S := S1024x1024) _ hz, step]

/-- … and the output block is that updated sum plus the bias row. -/
theorem out_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x1024 .i32) (harg5 : arg5.IsWhole) (arg6 : Memref sig .tc .vmem S32x1024 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i) (x0 : Vec F S1024x512 .bf16) (x1 : Vec F S1024x512 .bf16) (x2 : Vec F S512x1024 .i32) (x3 : Vec F S32x1024 .f32) (x4 : Vec F S32x1024 .f32) (x5 : Vec F S1x1024 .f32) (xs0 : Vec F S1024x1024 .f32) :
    out0_C_6 c i arg3 harg3 arg4 harg4 arg5 harg5 arg6 harg6 arg7 harg7 arg8 harg8 arg9 harg9 arg10 harg10 hc0 hc1 x0 x1 x2 x3 x4 x5 xs0 = k0_pay2 x5 (step x0 x1 x2 x3 x4 xs0) := by
  unfold out0_C_6
  rw [View.read_writes_eq_canon _ _ _ (cover0_C_6 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero (S := S1024x1024) hz]
  simp only [View.readAt_eq_ld, harg3.read_unread, harg4.read_unread, harg5.read_unread, harg6.read_unread,
    harg7.read_unread, harg8.read_unread, harg10.read_unread, View.ld_unit_zero (S := S1024x512) hz,
    View.ld_unit_zero (S := S512x1024) hz, View.ld_unit_zero (S := S32x1024) hz, View.ld_unit_zero (S := S1x1024) hz,
    View.ld_unit_zero (S := S1024x1024) hz, readCov_cons_whole (S := S1024x1024) _ hz, step]

/-- At the first point of a run the scratch is first zeroed: it ends at the update of the zero block. -/
theorem sout_A (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x1024 .i32) (harg5 : arg5.IsWhole) (arg6 : Memref sig .tc .vmem S32x1024 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : cond0_0 i) (hc1 : ¬cond0_1 i) (x0 : Vec F S1024x512 .bf16) (x1 : Vec F S1024x512 .bf16) (x2 : Vec F S512x1024 .i32) (x3 : Vec F S32x1024 .f32) (x4 : Vec F S32x1024 .f32) (x5 : Vec F S1x1024 .f32) :
    sout0_A_0 c i arg3 harg3 arg4 harg4 arg5 harg5 arg6 harg6 arg7 harg7 arg8 harg8 arg9 harg9 arg10 harg10 hc0 hc1 x0 x1 x2 x3 x4 x5 = step x0 x1 x2 x3 x4 (k0_pay3 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x1024) hz]
  simp only [View.readAt_eq_ld, harg3.read_unread, harg4.read_unread, harg5.read_unread, harg6.read_unread,
    harg7.read_unread, View.ld_unit_zero (S := S1024x512) hz, View.ld_unit_zero (S := S512x1024) hz,
    View.ld_unit_zero (S := S32x1024) hz, View.ld_unit_zero (S := S1024x1024) hz,
    readCov_cons_whole (S := S1024x1024) _ hz, step]

end Cert.KernelIdeal.Pieces

end
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.Spec.lean ====
/-
  A linear layer with 4-bit quantized weights, as mathematics on the extended reals.

  The packed array `P` holds two 4-bit weights per word: row `ρ` of `P` carries rows `2ρ` (low nibble) and `2ρ + 1`
  (high nibble, after an arithmetic shift by four) of the weight matrix. Thirty-two consecutive rows share one
  scale and one zero point, so weight row `k` reads row `k / 32` of `S` and `Z`:

      W[k, n] = S[k / 32, n] · (nibble(k, n) − Z[k / 32, n]),        out[a, n] = Σ_k X[a, k] · W[k, n] + B[n].

  `G` is that sum over all 4096 rows in their natural order. `Gk` is the same terms grouped as a kernel that tiles the
  contraction computes them: four consecutive blocks of 512 packed rows, and in each block first the 512 even weight
  rows and then the 512 odd ones, summed from zero. Addition on the extended reals is commutative and associative, so
  the two groupings agree (`Gk_eq_G`); no term is ever taken apart, so nothing here needs the entries to be finite.
-/
import Idealize.ShloMosaic.PureOps.Ideal
import Idealize.ShloMosaic.Lib.ValueIdx

noncomputable section

open scoped BigOperators

namespace Cert.Quant4

open Idealize.ShloMosaic Idealize.ShloMosaic.ValueIdx

/-! ## Re-indexing a sum over `0 … 4095` by blocks of even and odd positions -/

section Reindex
variable {M : Type*} [AddCommMonoid M]

/-- A sum over `0 … 2n − 1` taken two consecutive positions at a time. -/
theorem sum_range_two_mul (h : ℕ → M) : ∀ n : ℕ, ∑ k ∈ Finset.range (2 * n), h k = ∑ ρ ∈ Finset.range n, (h (2 * ρ) + h (2 * ρ + 1))
  | 0 => by simp
  | n + 1 => by
    rw [show 2 * (n + 1) = 2 * n + 1 + 1 from by ring, Finset.sum_range_succ, Finset.sum_range_succ,
      Finset.sum_range_succ, sum_range_two_mul h n, add_assoc]

/-- A sum over `0 … n·a − 1` taken in `a` consecutive blocks of `n`. -/
theorem sum_range_blocks (f : ℕ → M) (n : ℕ) : ∀ a : ℕ, ∑ ρ ∈ Finset.range (n * a), f ρ = ∑ s ∈ Finset.range a, ∑ r ∈ Finset.range n, f (n * s + r)
  | 0 => by simp
  | a + 1 => by
    rw [show n * (a + 1) = n * a + n from by ring, Finset.sum_range_add, Finset.sum_range_succ, sum_range_blocks f n a]

/-- Four blocks of 512 pairs, the even positions of a block before its odd ones, exhaust `0 … 4095`. -/
theorem sum_tiles (h : ℕ → M) :
    ∑ s ∈ Finset.range 4, ((∑ r : Fin 512, h (2 * (512 * s + r.val))) + ∑ r : Fin 512, h (2 * (512 * s + r.val) + 1))
      = ∑ k : Fin 4096, h k.val := by
  rw [← Finset.sum_range (fun k => h k), show 4096 = 2 * 2048 from rfl, sum_range_two_mul h 2048,
    show 2048 = 512 * 4 from rfl, sum_range_blocks (fun ρ => h (2 * ρ) + h (2 * ρ + 1)) 512 4]
  refine Finset.sum_congr rfl fun s _ => ?_
  rw [Finset.sum_add_distrib, ← Finset.sum_range (fun r => h (2 * (512 * s + r))),
    ← Finset.sum_range (fun r => h (2 * (512 * s + r) + 1))]

end Reindex

/-! ## The quantized weights and the two groupings of the product -/

/-- The low nibble of a packed word, as a number. -/
def lowNib (w : BitVec 32) : EReal := FloatOps.sitofp (F := Ideal) .f32 (IntOp.andi w 15#32)
/-- The second nibble of a packed word — the word shifted right by four, arithmetically, then masked — as a number. -/
def highNib (w : BitVec 32) : EReal := FloatOps.sitofp (F := Ideal) .f32 (IntOp.andi (IntOp.shrsi .vector w 4#32) 15#32)

/-- Row and column positions from naturals (reduced modulo the extent, which never bites below it). -/
def f4096 (a : ℕ) : Fin 4096 := ⟨a % 4096, Nat.mod_lt _ (by decide)⟩
def f2048 (a : ℕ) : Fin 2048 := ⟨a % 2048, Nat.mod_lt _ (by decide)⟩
def f128 (a : ℕ) : Fin 128 := ⟨a % 128, Nat.mod_lt _ (by decide)⟩

variable (X : (⟨2, ![4096, 4096]⟩ : Shape).Idx → EReal) (P : (⟨2, ![2048, 4096]⟩ : Shape).Idx → BitVec 32)
  (S Z : (⟨2, ![128, 4096]⟩ : Shape).Idx → EReal) (B : (⟨1, ![4096]⟩ : Shape).Idx → EReal)

/-- The nibble that weight row `k` reads at column `n`: packed row `k / 2`, low for even `k`, high for odd. -/
def nibble (k : ℕ) (n : Fin 4096) : EReal :=
  if k % 2 = 0 then lowNib (P (ix2 (f2048 (k / 2)) n)) else highNib (P (ix2 (f2048 (k / 2)) n))

/-- The dequantized weight `W[k, n] = S[k / 32, n] · (nibble − Z[k / 32, n])`. -/
def weight (k : ℕ) (n : Fin 4096) : EReal :=
  S (ix2 (f128 (k / 32)) n) * (nibble P k n - Z (ix2 (f128 (k / 32)) n))

/-- One term of the product: `X[a, k] · W[k, n]`. -/
def term (a n : Fin 4096) (k : ℕ) : EReal := X (ix2 a (f4096 k)) * weight P S Z k n

/-- THE LAYER: `Σ_k X[a, k] · W[k, n] + B[n]`, the rows in their natural order. -/
def G : (⟨2, ![4096, 4096]⟩ : Shape).Idx → EReal :=
  fun i => (∑ k : Fin 4096, term X P S Z (i 0) (i 1) k.val) + B (ix1 (i 1))

/-- The contribution of the `s`-th block of 512 packed rows: its even weight rows, then its odd ones. -/
def tile (a n : Fin 4096) (s : ℕ) : EReal :=
  (∑ r : Fin 512, term X P S Z a n (2 * (512 * s + r.val))) + ∑ r : Fin 512, term X P S Z a n (2 * (512 * s + r.val) + 1)

/-- The layer as a tiled accumulation computes it: from zero, the four blocks in turn, then the bias. -/
def Gk : (⟨2, ![4096, 4096]⟩ : Shape).Idx → EReal :=
  fun i => (0 + ∑ s ∈ Finset.range 4, tile X P S Z (i 0) (i 1) s) + B (ix1 (i 1))

/-- The tiled accumulation is the layer. -/
theorem Gk_eq_G : Gk X P S Z B = G X P S Z B := by
  funext i
  unfold Gk G tile
  rw [zero_add, sum_tiles (term X P S Z (i 0) (i 1))]

end Cert.Quant4

end
-- ==== Proof.Payload.lean ====
/-
  The body's arithmetic at one element, on the extended reals.

  A scale or zero-point block has 32 rows for 512 packed rows: it is reshaped to [32, 1, 1024], repeated 16 times along
  the new axis and flattened to [512, 1024], so packed row `r` reads its row `r / 16`. The weights of a block are
  `scale · (nibble − zero)`, entry by entry; a change of float format changes nothing here. A product accumulated into
  the zero block is, at `(p, q)`, the plain sum over the 512 contracted positions. So one point's update adds to the
  running sum at `(p, q)` first `Σ_r xe[p, r] · wLow[r, q]` and then `Σ_r xo[p, r] · wHigh[r, q]`; the epilogue adds the
  bias row's entry `q`; the reset block is zero.
-/
import proofs.«423189_j47296179864027_3_alg».proof.Proof.Pieces
import proofs.«423189_j47296179864027_3_alg».proof.Proof.LibPlainDot
import proofs.«423189_j47296179864027_3_alg».proof.Proof.Spec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.ShloMosaic.ValueIdx

namespace Cert.KernelIdeal.Payload

open Cert.KernelIdeal Cert.KernelIdeal.Gen Cert.KernelIdeal.Pieces
open Cert.Quant4 (lowNib highNib)

/-- The row of a 32-row block that packed row `r` of 512 reads. -/
def grp (r : Fin 512) : Fin 32 := ⟨r.val / 16, by have := r.isLt; omega⟩

/-- A [32, 1024] block repeated 16 times along rows (through [32, 1, 1024] and [32, 16, 1024]) reads, at packed row
    `r`, its row `r / 16`. -/
theorem repeat16_apply {α : Type} (v : S32x1024.Idx → α) (r : Fin 512) (q : Fin 1024) :
    shapeCast S512x1024 (broadcastTo S32x16x1024 (shapeCast S32x1x1024 (shapeCast S32x1x1024 v shapeCasts_S32x1024_S32x1x1024)
      shapeCasts_S32x1x1024_S32x1x1024) broadcasts_S32x1x1024_S32x16x1024) shapeCasts_S32x16x1024_S512x1024 (ix2 r q)
      = v (ix2 (grp r) q) := by
  have hr := r.isLt
  rw [shapeCast_self]
  refine (shapeCast_apply _ shapeCasts_S32x16x1024_S512x1024 (ix2 r q)
    (ix3 (grp r) (⟨r.val % 16, Nat.mod_lt _ (by decide)⟩ : Fin 16) q) ?_).trans ?_
  · rw [Shape.rowMajor_val_three, Shape.rowMajor_val_two]
    show (r.val / 16 * 16 + r.val % 16) * 1024 + q.val = r.val * 1024 + q.val
    omega
  refine (broadcastTo_apply _ broadcasts_S32x1x1024_S32x16x1024 _ (ix3 (grp r) (0 : Fin 1) q) ?_).trans ?_
  · intro a
    match a with
    | ⟨0, _⟩ => rfl
    | ⟨1, _⟩ => rfl
    | ⟨2, _⟩ => rfl
  refine shapeCast_apply _ shapeCasts_S32x1024_S32x1x1024 _ (ix2 (grp r) q) ?_
  rw [Shape.rowMajor_val_three, Shape.rowMajor_val_two]
  show (r.val / 16) * 1024 + q.val = ((r.val / 16) * 1 + 0) * 1024 + q.val
  omega

theorem pay4_apply (v : Vec Ideal S32x1024 .f32) (r : Fin 512) (q : Fin 1024) :
    k0_pay4 (F := Ideal) v (ix2 r q) = v (ix2 (grp r) q) := repeat16_apply v r q

theorem pay5_apply (v : Vec Ideal S32x1024 .f32) (r : Fin 512) (q : Fin 1024) :
    k0_pay5 (F := Ideal) v (ix2 r q) = v (ix2 (grp r) q) := repeat16_apply v r q

/-- The dequantized low-nibble weight of a block at packed row `r`, column `q`. -/
def wLow (x2 : Vec Ideal S512x1024 .i32) (x3 x4 : Vec Ideal S32x1024 .f32) (r : Fin 512) (q : Fin 1024) : EReal :=
  x3 (ix2 (grp r) q) * (lowNib (x2 (ix2 r q)) - x4 (ix2 (grp r) q))
/-- The dequantized high-nibble weight of a block at packed row `r`, column `q`. -/
def wHigh (x2 : Vec Ideal S512x1024 .i32) (x3 x4 : Vec Ideal S32x1024 .f32) (r : Fin 512) (q : Fin 1024) : EReal :=
  x3 (ix2 (grp r) q) * (highNib (x2 (ix2 r q)) - x4 (ix2 (grp r) q))

/-- The high-nibble weights the body forms, at an element. -/
theorem pay7_apply (x2 : Vec Ideal S512x1024 .i32) (x3 x4 : Vec Ideal S32x1024 .f32) (r : Fin 512) (q : Fin 1024) :
    k0_pay7 (F := Ideal) x2 x3 x4 (ix2 r q) = wHigh x2 x3 x4 r q := by
  show k0_pay4 (F := Ideal) x3 (ix2 r q) * (highNib (x2 (ix2 r q)) - k0_pay5 (F := Ideal) x4 (ix2 r q)) = _
  rw [pay4_apply, pay5_apply]
  rfl

/-- The printed contraction is a plain product: left axis 1 against right axis 0. -/
theorem plain : Cert.Lib.PlainDot dot_S1024x512_S512x1024_S1024x1024_1_0_0_1_n_n := ⟨rfl, rfl, rfl, rfl, rfl, rfl⟩

/-- The first half of the update: the running sum plus the even-column block times the low-nibble weights. -/
theorem pay6_apply (x2 : Vec Ideal S512x1024 .i32) (x3 x4 : Vec Ideal S32x1024 .f32) (acc : Vec Ideal S1024x1024 .f32)
    (x0 : Vec Ideal S1024x512 .bf16) (p q : Fin 1024) :
    k0_pay6 (F := Ideal) x2 x3 x4 acc x0 (ix2 p q) = acc (ix2 p q) + ∑ r : Fin 512, x0 (ix2 p r) * wLow x2 x3 x4 r q := by
  unfold k0_pay6
  simp only [shapeCast_self]
  show acc (ix2 p q) + _ = _
  congr 1
  refine (plain.matmul_zero_apply none _ _ p q).trans (Finset.sum_congr rfl fun r _ => ?_)
  congr 1
  show k0_pay4 (F := Ideal) x3 (ix2 r q) * (lowNib (x2 (ix2 r q)) - k0_pay5 (F := Ideal) x4 (ix2 r q)) = _
  rw [pay4_apply, pay5_apply]
  rfl

/-- The second half: plus the odd-column block times given weights. -/
theorem pay1_apply (w : FVec Ideal S512x1024 .bf16) (acc : Vec Ideal S1024x1024 .f32) (x1 : Vec Ideal S1024x512 .bf16)
    (p q : Fin 1024) :
    k0_pay1 (F := Ideal) w acc x1 (ix2 p q) = acc (ix2 p q) + ∑ r : Fin 512, x1 (ix2 p r) * w (ix2 r q) := by
  unfold k0_pay1
  simp only [shapeCast_self]
  show acc (ix2 p q) + _ = _
  congr 1
  exact plain.matmul_zero_apply none _ _ p q

/-- ONE POINT'S UPDATE at an element. -/
theorem step_apply (x0 x1 : Vec Ideal S1024x512 .bf16) (x2 : Vec Ideal S512x1024 .i32) (x3 x4 : Vec Ideal S32x1024 .f32)
    (acc : Vec Ideal S1024x1024 .f32) (p q : Fin 1024) :
    step (F := Ideal) x0 x1 x2 x3 x4 acc (ix2 p q)
      = acc (ix2 p q) + ((∑ r : Fin 512, x0 (ix2 p r) * wLow x2 x3 x4 r q) + ∑ r : Fin 512, x1 (ix2 p r) * wHigh x2 x3 x4 r q) := by
  unfold step
  rw [pay1_apply, pay6_apply, add_assoc]
  congr 2
  exact Finset.sum_congr rfl fun r _ => by rw [pay7_apply]

/-- The reset block is zero. -/
theorem pay3_apply (i : S1024x1024.Idx) : k0_pay3 (F := Ideal) i = 0 := by
  show Ideal.ofBits .f32 0x00000000#32 = 0
  exact Ideal.ofBits_zero_f32

/-- The epilogue adds the bias row's entry of the column. -/
theorem pay2_apply (x5 : Vec Ideal S1x1024 .f32) (v : Vec Ideal S1024x1024 .f32) (p q : Fin 1024) :
    k0_pay2 (F := Ideal) x5 v (ix2 p q) = v (ix2 p q) + x5 (ix2 (0 : Fin 1) q) := by
  unfold k0_pay2
  simp only [shapeCast_self]
  show v (ix2 p q) + _ = _
  congr 1
  refine broadcastTo_apply _ broadcasts_S1x1024_S1024x1024 (ix2 p q) (ix2 (0 : Fin 1) q) ?_
  intro a
  match a with
  | ⟨0, _⟩ => rfl
  | ⟨1, _⟩ => rfl

end Cert.KernelIdeal.Payload

end
-- ==== Proof.Blocks.lean ====
import proofs.«423189_j47296179864027_3_alg».proof.Proof.Gen.KernelIdeal.Frame
import proofs.«423189_j47296179864027_3_alg».proof.Proof.Spec
import Idealize.ShloMosaic.Lib.StableHlo.Run
import Idealize.ShloMosaic.Lib.Pipeline.Value

/-
  The kernel's six input blocks at a grid point, entry by entry, as entries of the argument arrays.

  The grid has 64 points `t`, with coordinates `(i, j, k) = (t / 16, t / 4 % 4, t % 4)`. The activations are read through
  two arrays made before the grid runs: the even columns and the odd columns of `X` (entry `(a, ρ)` of the first is
  `X[a, 2ρ]`, of the second `X[a, 2ρ + 1]`), in blocks of 1024 × 512 at block `(i, k)`; the packed weights in blocks of
  512 × 1024 at `(k, j)`; scales and zero points in blocks of 32 × 1024 at `(k, j)`; the bias, as a row, in blocks of
  1 × 1024 at `(0, j)`. An entry of a block is the array's entry at block index × block extent + position inside the
  block, on each axis.
-/
noncomputable section
namespace Cert.KernelIdeal.Blocks
open Cert.KernelIdeal Cert.KernelIdeal.Gen Idealize.ShloMosaic Idealize.ShloMosaic.TcCoe Idealize.SL.Sem Idealize.ShloMosaic.ValueIdx
open Cert.Quant4 (f4096 f2048 f128)

variable (m : (ℓ : Loc nD τ sig) → Buf (Elt Ideal) ℓ)

/-- The argument arrays, at their literal types. -/
abbrev argX (c : Dev nD) : FVec Ideal S4096x4096 .f32 := m ((c : Thread nD τ).loc main_arg0)
abbrev argP (c : Dev nD) : IVec S2048x4096 32 := m ((c : Thread nD τ).loc main_arg1)
abbrev argS (c : Dev nD) : FVec Ideal S128x4096 .f32 := m ((c : Thread nD τ).loc main_arg2)
abbrev argZ (c : Dev nD) : FVec Ideal S128x4096 .f32 := m ((c : Thread nD τ).loc main_arg3)
abbrev argB (c : Dev nD) : FVec Ideal S4096 .f32 := m ((c : Thread nD τ).loc main_arg4)

/-- The input blocks at a point, at their literal types. -/
abbrev xeBlk (c : Dev nD) (t : Fin cfg0.N) : Vec Ideal S1024x512 .bf16 := iblk m c 0 t
abbrev xoBlk (c : Dev nD) (t : Fin cfg0.N) : Vec Ideal S1024x512 .bf16 := iblk m c 1 t
abbrev pwBlk (c : Dev nD) (t : Fin cfg0.N) : Vec Ideal S512x1024 .i32 := iblk m c 2 t
abbrev scBlk (c : Dev nD) (t : Fin cfg0.N) : Vec Ideal S32x1024 .f32 := iblk m c 3 t
abbrev zpBlk (c : Dev nD) (t : Fin cfg0.N) : Vec Ideal S32x1024 .f32 := iblk m c 4 t
abbrev bsBlk (c : Dev nD) (t : Fin cfg0.N) : Vec Ideal S1x1024 .f32 := iblk m c 5 t

/-- Where each window's block sits in its array: the block index per axis, as a function of the point. -/
theorem idx_x : ∀ t : Fin cfg0.N, win0_0.index t (0 : Fin 2) = t.val / 16 ∧ win0_0.index t (1 : Fin 2) = t.val % 4
    ∧ win0_1.index t (0 : Fin 2) = t.val / 16 ∧ win0_1.index t (1 : Fin 2) = t.val % 4 :=
  (by decide +kernel : ∀ t : Fin grid0.N, _)
/-- The same for the weight, scale, zero-point and bias windows. -/
theorem idx_w : ∀ t : Fin cfg0.N, win0_2.index t (0 : Fin 2) = t.val % 4 ∧ win0_2.index t (1 : Fin 2) = t.val / 4 % 4
    ∧ win0_3.index t (0 : Fin 2) = t.val % 4 ∧ win0_3.index t (1 : Fin 2) = t.val / 4 % 4
    ∧ win0_4.index t (0 : Fin 2) = t.val % 4 ∧ win0_4.index t (1 : Fin 2) = t.val / 4 % 4
    ∧ win0_5.index t (0 : Fin 2) = 0 ∧ win0_5.index t (1 : Fin 2) = t.val / 4 % 4 :=
  (by decide +kernel : ∀ t : Fin grid0.N, _)

/-! ## The arrays the region reads that the host operations made -/

/-- A row vector made from a vector by a reshape reads the vector at its column. -/
theorem row_at (b : FVec Ideal S4096 .f32) (h : S4096.ShapeCasts S1x4096) (i : S1x4096.Idx) (n : Fin 4096)
    (hn : (i 1).val = n.val) : shapeCast S1x4096 b h i = b (ix1 n) := by
  refine shapeCast_apply b h i (ix1 n) ?_
  rw [Shape.rowMajor_val_one, Shape.rowMajor_val_two]
  have h0 : (i 0).val < 1 := (i 0).isLt
  show n.val = (i 0).val * 4096 + (i 1).val
  omega

/-- The matrix split into pairs of consecutive columns, the pair's member `e` kept: entry `(a, ρ)` of the result is
    entry `(a, 2ρ + e)` of the matrix (the cast to the narrower format is the identity on the extended reals). -/
theorem half_at (e : Fin 2) (x : FVec Ideal S4096x4096 .f32) (hlt : FTy.bits .bf16 < FTy.bits .f32)
    (h1 : S4096x4096.ShapeCasts S4096x2048x2) (h2 : S4096x2048x2.Slices ![0, 0, e.val] S4096x2048x1)
    (h3 : S4096x2048x1.ShapeCasts S4096x2048) (i : S4096x2048.Idx) (a k : Fin 4096)
    (ha : (i 0).val = a.val) (hk : k.val = 2 * (i 1).val + e.val) :
    shapeCast S4096x2048 (extractStridedSlice S4096x2048x1 ![0, 0, e.val] (shapeCast S4096x2048x2 (truncf .bf16 x hlt) h1) h2) h3 i
      = x (ix2 a k) := by
  refine (shapeCast_apply _ h3 i (ix3 (i 0) (i 1) (0 : Fin 1)) ?_).trans ?_
  · rw [Shape.rowMajor_val_three, Shape.rowMajor_val_two]
    show ((i 0).val * 2048 + (i 1).val) * 1 + 0 = (i 0).val * 2048 + (i 1).val
    omega
  refine (extractStridedSlice_apply _ _ h2 _ (ix3 (i 0) (i 1) e) ?_).trans ?_
  · intro d
    match d with
    | ⟨0, _⟩ => show (i 0).val = 0 + (i 0).val; omega
    | ⟨1, _⟩ => show (i 1).val = 0 + (i 1).val; omega
    | ⟨2, _⟩ => show e.val = e.val + 0; omega
  refine (shapeCast_apply _ h1 _ (ix2 a k) ?_).trans rfl
  rw [Shape.rowMajor_val_two, Shape.rowMajor_val_three]
  show a.val * 4096 + k.val = ((i 0).val * 2048 + (i 1).val) * 2 + e.val
  omega

/-- The array of even columns, as the region finds it, in terms of `X`. -/
theorem V_even (c : Dev nD) : (V m c main_v3 : S4096x2048.Idx → EReal)
    = shapeCast S4096x2048 (extractStridedSlice S4096x2048x1 ![0, 0, 0] (shapeCast S4096x2048x2 (truncf .bf16 (argX m c) bitsLt_bf16_f32) shapeCasts_S4096x4096_S4096x2048x2) slices_S4096x2048x2_S4096x2048x1_0_0_0) shapeCasts_S4096x2048x1_S4096x2048 := by
  dsimp only [Gen.V, Gen.hostOps0]; after_results; rfl
/-- The array of odd columns, as the region finds it, in terms of `X`. -/
theorem V_odd (c : Dev nD) : (V m c main_v5 : S4096x2048.Idx → EReal)
    = shapeCast S4096x2048 (extractStridedSlice S4096x2048x1 ![0, 0, 1] (shapeCast S4096x2048x2 (truncf .bf16 (argX m c) bitsLt_bf16_f32) shapeCasts_S4096x4096_S4096x2048x2) slices_S4096x2048x2_S4096x2048x1_0_0_1) shapeCasts_S4096x2048x1_S4096x2048 := by
  dsimp only [Gen.V, Gen.hostOps0]; after_results; rfl
/-- The bias row, as the region finds it, in terms of the bias vector. -/
theorem V_bias (c : Dev nD) : (V m c main_v6 : S1x4096.Idx → EReal) = shapeCast S1x4096 (argB m c) shapeCasts_S4096_S1x4096 := by
  dsimp only [Gen.V, Gen.hostOps0]; after_results; rfl

/-! ## The blocks, entry by entry -/

/-- The block of even columns: rows `1024 i + p`, columns `2 (512 k + r)` of `X`. -/
theorem xeBlk_apply (c : Dev nD) (t : Fin cfg0.N) (p : Fin 1024) (r : Fin 512) :
    xeBlk m c t (ix2 p r) = argX m c (ix2 (f4096 (1024 * (t.val / 16) + p.val)) (f4096 (2 * (512 * (t.val % 4) + r.val)))) := by
  have ht : t.val < 64 := lt_of_lt_of_eq t.isLt (show cfg0.N = 64 from N_0)
  obtain ⟨e0, e1, -⟩ := idx_x t
  have hp := p.isLt
  have hr := r.isLt
  show V m c main_v3 (((cfg0.win 0).blk t).view.emb (ix2 p r)) = _
  refine (congrFun (V_even m c) _).trans ?_
  refine half_at (0 : Fin 2) (argX m c) _ _ _ _ _ _ _ ?_ ?_
  · show win0_0.index t (0 : Fin 2) * 1024 + 1 * p.val = (1024 * (t.val / 16) + p.val) % 4096; omega
  · show (2 * (512 * (t.val % 4) + r.val)) % 4096 = 2 * (win0_0.index t (1 : Fin 2) * 512 + 1 * r.val) + 0; omega
/-- The block of odd columns: rows `1024 i + p`, columns `2 (512 k + r) + 1` of `X`. -/
theorem xoBlk_apply (c : Dev nD) (t : Fin cfg0.N) (p : Fin 1024) (r : Fin 512) :
    xoBlk m c t (ix2 p r) = argX m c (ix2 (f4096 (1024 * (t.val / 16) + p.val)) (f4096 (2 * (512 * (t.val % 4) + r.val) + 1))) := by
  have ht : t.val < 64 := lt_of_lt_of_eq t.isLt (show cfg0.N = 64 from N_0)
  obtain ⟨-, -, e0, e1⟩ := idx_x t
  have hp := p.isLt
  have hr := r.isLt
  show V m c main_v5 (((cfg0.win 1).blk t).view.emb (ix2 p r)) = _
  refine (congrFun (V_odd m c) _).trans ?_
  refine half_at (1 : Fin 2) (argX m c) _ _ _ _ _ _ _ ?_ ?_
  · show win0_1.index t (0 : Fin 2) * 1024 + 1 * p.val = (1024 * (t.val / 16) + p.val) % 4096; omega
  · show (2 * (512 * (t.val % 4) + r.val) + 1) % 4096 = 2 * (win0_1.index t (1 : Fin 2) * 512 + 1 * r.val) + 1; omega
/-- The block of packed weights: rows `512 k + r`, columns `1024 j + q`. -/
theorem pwBlk_apply (c : Dev nD) (t : Fin cfg0.N) (r : Fin 512) (q : Fin 1024) :
    pwBlk m c t (ix2 r q) = argP m c (ix2 (f2048 (512 * (t.val % 4) + r.val)) (f4096 (1024 * (t.val / 4 % 4) + q.val))) := by
  have ht : t.val < 64 := lt_of_lt_of_eq t.isLt (show cfg0.N = 64 from N_0)
  obtain ⟨e0, e1, -⟩ := idx_w t
  have hr := r.isLt
  have hq := q.isLt
  show V m c main_arg1 (((cfg0.win 2).blk t).view.emb (ix2 r q)) = _
  rw [V_main_arg1]
  refine congrArg (m ((c : Thread nD τ).loc main_arg1)) (funext fun a => Fin.ext ?_)
  match a with
  | ⟨0, _⟩ => show win0_2.index t (0 : Fin 2) * 512 + 1 * r.val = (512 * (t.val % 4) + r.val) % 2048; omega
  | ⟨1, _⟩ => show win0_2.index t (1 : Fin 2) * 1024 + 1 * q.val = (1024 * (t.val / 4 % 4) + q.val) % 4096; omega
/-- The block of scales: rows `32 k + g`, columns `1024 j + q`. -/
theorem scBlk_apply (c : Dev nD) (t : Fin cfg0.N) (g : Fin 32) (q : Fin 1024) :
    scBlk m c t (ix2 g q) = argS m c (ix2 (f128 (32 * (t.val % 4) + g.val)) (f4096 (1024 * (t.val / 4 % 4) + q.val))) := by
  have ht : t.val < 64 := lt_of_lt_of_eq t.isLt (show cfg0.N = 64 from N_0)
  obtain ⟨-, -, e0, e1, -⟩ := idx_w t
  have hg := g.isLt
  have hq := q.isLt
  show V m c main_arg2 (((cfg0.win 3).blk t).view.emb (ix2 g q)) = _
  rw [V_main_arg2]
  refine congrArg (m ((c : Thread nD τ).loc main_arg2)) (funext fun a => Fin.ext ?_)
  match a with
  | ⟨0, _⟩ => show win0_3.index t (0 : Fin 2) * 32 + 1 * g.val = (32 * (t.val % 4) + g.val) % 128; omega
  | ⟨1, _⟩ => show win0_3.index t (1 : Fin 2) * 1024 + 1 * q.val = (1024 * (t.val / 4 % 4) + q.val) % 4096; omega
/-- The block of zero points: rows `32 k + g`, columns `1024 j + q`. -/
theorem zpBlk_apply (c : Dev nD) (t : Fin cfg0.N) (g : Fin 32) (q : Fin 1024) :
    zpBlk m c t (ix2 g q) = argZ m c (ix2 (f128 (32 * (t.val % 4) + g.val)) (f4096 (1024 * (t.val / 4 % 4) + q.val))) := by
  have ht : t.val < 64 := lt_of_lt_of_eq t.isLt (show cfg0.N = 64 from N_0)
  obtain ⟨-, -, -, -, e0, e1, -⟩ := idx_w t
  have hg := g.isLt
  have hq := q.isLt
  show V m c main_arg3 (((cfg0.win 4).blk t).view.emb (ix2 g q)) = _
  rw [V_main_arg3]
  refine congrArg (m ((c : Thread nD τ).loc main_arg3)) (funext fun a => Fin.ext ?_)
  match a with
  | ⟨0, _⟩ => show win0_4.index t (0 : Fin 2) * 32 + 1 * g.val = (32 * (t.val % 4) + g.val) % 128; omega
  | ⟨1, _⟩ => show win0_4.index t (1 : Fin 2) * 1024 + 1 * q.val = (1024 * (t.val / 4 % 4) + q.val) % 4096; omega
/-- The block of the bias row: entries `1024 j + q` of the bias. -/
theorem bsBlk_apply (c : Dev nD) (t : Fin cfg0.N) (z : Fin 1) (q : Fin 1024) :
    bsBlk m c t (ix2 z q) = argB m c (ix1 (f4096 (1024 * (t.val / 4 % 4) + q.val))) := by
  have ht : t.val < 64 := lt_of_lt_of_eq t.isLt (show cfg0.N = 64 from N_0)
  obtain ⟨-, -, -, -, -, -, e0, e1⟩ := idx_w t
  have hq := q.isLt
  show V m c main_v6 (((cfg0.win 5).blk t).view.emb (ix2 z q)) = _
  refine (congrFun (V_bias m c) _).trans ?_
  refine row_at (argB m c) _ _ _ ?_
  show win0_5.index t (1 : Fin 2) * 1024 + 1 * q.val = (1024 * (t.val / 4 % 4) + q.val) % 4096
  omega

end Cert.KernelIdeal.Blocks
end
-- ==== Proof.Fold.lean ====
/-
  The accumulation over the grid, and the result array.

  The 64 grid points come in runs of four: the points `4u, 4u + 1, 4u + 2, 4u + 3` share an output block `(i, j)` and walk
  the four blocks `k = 0 … 3` of the contraction. Point `n` adds to the running sum, at `(p, q)` of the block, the
  contribution of contraction block `n % 4` to the output entry `(1024·(n / 16) + p, 1024·(n / 4 % 4) + q)`; the first
  point of a run starts from zero. So after point `t` the running sum is zero plus the contributions of the blocks
  `0 … t % 4`, and the last point of a run writes back that sum of all four plus the bias entry — the layer's value
  there, grouped by blocks. The sixteen written-back blocks tile the result array.
-/
import proofs.«423189_j47296179864027_3_alg».proof.Proof.Gen.KernelIdeal.Value
import proofs.«423189_j47296179864027_3_alg».proof.Proof.Payload
import proofs.«423189_j47296179864027_3_alg».proof.Proof.Blocks
import proofs.«423189_j47296179864027_3_alg».proof.Proof.Spec
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.KernelIdeal.Value Cert.KernelIdeal.Pieces Cert.KernelIdeal.Payload
open Cert.KernelIdeal.Blocks
open Cert.Quant4 (f4096 f2048 f128 tile term weight nibble Gk)

variable (m : (ℓ : Loc nD τ sig) → Buf (Elt Ideal) ℓ) (ρ : Dev nD → PrngReg)

/-! ## One point's contribution -/

/-- What point `t` adds at `(p, q)` of its block, over the point's input blocks. -/
def addend (c : Dev nD) (t : Fin cfg0.N) (p q : Fin 1024) : EReal :=
  (∑ r : Fin 512, xeBlk m c t (ix2 p r) * wLow (pwBlk m c t) (scBlk m c t) (zpBlk m c t) r q)
    + ∑ r : Fin 512, xoBlk m c t (ix2 p r) * wHigh (pwBlk m c t) (scBlk m c t) (zpBlk m c t) r q

/-- The contribution of contraction block `n % 4` to the output entry that `(p, q)` of point `n`'s block is. -/
def tileAt (c : Dev nD) (n : ℕ) (y : S1024x1024.Idx) : EReal :=
  tile (argX m c) (argP m c) (argS m c) (argZ m c) (f4096 (1024 * (n / 16) + (y 0).val)) (f4096 (1024 * (n / 4 % 4) + (y 1).val)) (n % 4)

/-- Over the argument arrays, a point's addend is that contribution: packed row `512 k + r` carries weight rows
    `2 (512 k + r)` and `2 (512 k + r) + 1`, both in scale group `32 k + r / 16`. -/
theorem addend_eq (c : Dev nD) (t : Fin cfg0.N) (p q : Fin 1024) : addend m c t p q = tileAt m c t.val (ix2 p q) := by
  have hp := p.isLt
  have hq := q.isLt
  unfold addend tileAt tile
  refine congrArg₂ (· + ·) (Finset.sum_congr rfl fun r _ => ?_) (Finset.sum_congr rfl fun r _ => ?_)
  · have hr := r.isLt
    have e1 : f128 (32 * (t.val % 4) + (grp r).val) = f128 (2 * (512 * (t.val % 4) + r.val) / 32) :=
      Fin.ext (by show (32 * (t.val % 4) + r.val / 16) % 128 = (2 * (512 * (t.val % 4) + r.val) / 32) % 128; omega)
    have e2 : f2048 (512 * (t.val % 4) + r.val) = f2048 (2 * (512 * (t.val % 4) + r.val) / 2) :=
      Fin.ext (by show (512 * (t.val % 4) + r.val) % 2048 = (2 * (512 * (t.val % 4) + r.val) / 2) % 2048; omega)
    have e3 : 2 * (512 * (t.val % 4) + r.val) % 2 = 0 := by omega
    unfold wLow term weight nibble
    rw [xeBlk_apply, pwBlk_apply, scBlk_apply, zpBlk_apply, e1, e2, if_pos e3]
  · have hr := r.isLt
    have e1 : f128 (32 * (t.val % 4) + (grp r).val) = f128 ((2 * (512 * (t.val % 4) + r.val) + 1) / 32) :=
      Fin.ext (by show (32 * (t.val % 4) + r.val / 16) % 128 = ((2 * (512 * (t.val % 4) + r.val) + 1) / 32) % 128; omega)
    have e2 : f2048 (512 * (t.val % 4) + r.val) = f2048 ((2 * (512 * (t.val % 4) + r.val) + 1) / 2) :=
      Fin.ext (by show (512 * (t.val % 4) + r.val) % 2048 = ((2 * (512 * (t.val % 4) + r.val) + 1) / 2) % 2048; omega)
    have e3 : ¬(2 * (512 * (t.val % 4) + r.val) + 1) % 2 = 0 := by omega
    unfold wHigh term weight nibble
    rw [xoBlk_apply, pwBlk_apply, scBlk_apply, zpBlk_apply, e1, e2, if_neg e3]

/-! ## The carried sum, point by point -/

/-- At the first point of a run the scratch ends at zero plus that point's contribution. -/
theorem scAt_reset (c : Dev nD) (n : ℕ) (hb : n < cfg0.N) (h0 : n % 4 = 0) (acc : Vec Ideal S1024x1024 .f32) (p q : Fin 1024) :
    scAt0_0 m c n hb acc (ix2 p q) = 0 + tileAt m c n (ix2 p q) := by
  have h1 : ¬n % 4 = 3 := by omega
  unfold scAt0_0
  rw [dif_pos h0, dif_neg h1]
  refine (congrFun (sout_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))) (ix2 p q)).trans ?_
  refine (step_apply (xeBlk m c (⟨n, hb⟩ : Fin cfg0.N)) (xoBlk m c (⟨n, hb⟩ : Fin cfg0.N)) (pwBlk m c (⟨n, hb⟩ : Fin cfg0.N)) (scBlk m c (⟨n, hb⟩ : Fin cfg0.N)) (zpBlk m c (⟨n, hb⟩ : Fin cfg0.N)) (k0_pay3 (F := Ideal)) p q).trans ?_
  rw [pay3_apply]
  exact congrArg (0 + ·) (addend_eq m c (⟨n, hb⟩ : Fin cfg0.N) p q)

/-- At every other point it ends at what the point before left plus that point's contribution. -/
theorem scAt_step (c : Dev nD) (n : ℕ) (hb : n < cfg0.N) (h0 : ¬n % 4 = 0) (acc : Vec Ideal S1024x1024 .f32) (p q : Fin 1024) :
    scAt0_0 m c n hb acc (ix2 p q) = acc (ix2 p q) + tileAt m c n (ix2 p q) := by
  unfold scAt0_0
  rw [dif_neg h0]
  by_cases h1 : n % 4 = 3
  · rw [dif_pos h1]
    refine (congrFun (sout_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc) (ix2 p q)).trans ?_
    refine (step_apply (xeBlk m c (⟨n, hb⟩ : Fin cfg0.N)) (xoBlk m c (⟨n, hb⟩ : Fin cfg0.N)) (pwBlk m c (⟨n, hb⟩ : Fin cfg0.N)) (scBlk m c (⟨n, hb⟩ : Fin cfg0.N)) (zpBlk m c (⟨n, hb⟩ : Fin cfg0.N)) acc p q).trans ?_
    exact congrArg (acc (ix2 p q) + ·) (addend_eq m c (⟨n, hb⟩ : Fin cfg0.N) p q)
  · rw [dif_neg h1]
    refine (congrFun (sout_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc) (ix2 p q)).trans ?_
    refine (step_apply (xeBlk m c (⟨n, hb⟩ : Fin cfg0.N)) (xoBlk m c (⟨n, hb⟩ : Fin cfg0.N)) (pwBlk m c (⟨n, hb⟩ : Fin cfg0.N)) (scBlk m c (⟨n, hb⟩ : Fin cfg0.N)) (zpBlk m c (⟨n, hb⟩ : Fin cfg0.N)) acc p q).trans ?_
    exact congrArg (acc (ix2 p q) + ·) (addend_eq m c (⟨n, hb⟩ : Fin cfg0.N) p q)

/-- THE RUNNING SUM after point `t`: zero plus the contributions of the points of `t`'s run up to `t`. -/
theorem scratch_eq (c : Dev nD) (t : Fin cfg0.N) (y : S1024x1024.Idx) :
    (outsAt0 m c t.val t.isLt).2 y = 0 + ∑ s ∈ Finset.range (t.val % 4 + 1), tileAt m c (4 * (t.val / 4) + s) y := by
  refine (congrFun (soutsAt0_0_eq m c t) y).trans ?_
  refine Pipeline.accAt_add_apply (fun n h => scAt0_0 m c n h (VS0_0.read (Elt Ideal) VS0_0.junk)) (scAt0_0 m c) (fun _ => (0 : EReal))
    (tileAt m c) (4 * (t.val / 4)) 3 ?_ ?_ (t.val % 4) (by omega) _ y
  · intro h i
    obtain ⟨p, q, rfl⟩ : ∃ p q, i = ix2 p q := ⟨i 0, i 1, eq_ix2 i⟩
    exact scAt_reset m c _ h (by omega) _ p q
  · intro n h acc i hlt hle
    obtain ⟨p, q, rfl⟩ : ∃ p q, i = ix2 p q := ⟨i 0, i 1, eq_ix2 i⟩
    exact scAt_step m c n h (by omega) acc p q

/-! ## What is written back, and the result array -/

/-- The layer over the kernel's argument arrays, the contraction grouped by blocks. -/
abbrev result (c : Dev nD) : S4096x4096.Idx → EReal := Gk (argX m c) (argP m c) (argS m c) (argZ m c) (argB m c)

/-- Where the output's block sits in the result array: block `(t / 16, t / 4 % 4)`. -/
theorem idx_o : ∀ t : Fin cfg0.N, win0_6.index t (0 : Fin 2) = t.val / 16 ∧ win0_6.index t (1 : Fin 2) = t.val / 4 % 4 :=
  (by decide +kernel : ∀ t : Fin grid0.N, _)

/-- At the last point of a run the scratch, after the body, is the update of what the point before left. -/
theorem scratch_last (c : Dev nD) (t : Fin cfg0.N) (h0 : ¬t.val % 4 = 0) (h1 : t.val % 4 = 3) :
    step (F := Ideal) (xeBlk m c t) (xoBlk m c t) (pwBlk m c t) (scBlk m c t) (zpBlk m c t) (outsAt0 m c (t.val - 1) (Nat.lt_of_le_of_lt (Nat.sub_le _ _) t.isLt)).2
      = (outsAt0 m c t.val t.isLt).2 := by
  rw [outsAt0_C m c t h0 h1]
  dsimp only
  exact (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t)
    (outsAt0 m c (t.val - 1) (Nat.lt_of_le_of_lt (Nat.sub_le _ _) t.isLt)).2).symm

/-- WHAT A RUN'S LAST POINT WRITES BACK is its block of the layer: the four contributions from zero, plus the bias. -/
theorem flushed_eq (c : Dev nD) (t : Fin cfg0.N) (h1 : t.val % 4 = 3) :
    (dats m 0 c).flushed 6 t = ((cfg0.win 6).blk t).view.read (Elt Ideal) (result m c) := by
  have ht : t.val < 64 := lt_of_lt_of_eq t.isLt (show cfg0.N = 64 from N_0)
  have h0 : ¬t.val % 4 = 0 := by omega
  obtain ⟨o0, o1⟩ := idx_o t
  rw [flushed6_C m c t h0 h1]
  funext y
  obtain ⟨p, q, rfl⟩ : ∃ p q, y = ix2 p q := ⟨y 0, y 1, eq_ix2 y⟩
  have hp := p.isLt
  have hq := q.isLt
  show out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t)
      (outsAt0 m c (t.val - 1) (Nat.lt_of_le_of_lt (Nat.sub_le _ _) t.isLt)).2 (ix2 p q)
    = result m c (((cfg0.win 6).blk t).view.emb (ix2 p q))
  refine (congrFun (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t)
    (outsAt0 m c (t.val - 1) (Nat.lt_of_le_of_lt (Nat.sub_le _ _) t.isLt)).2) (ix2 p q)).trans ?_
  refine (pay2_apply (bsBlk m c t) _ p q).trans ?_
  rw [scratch_last m c t h0 h1, scratch_eq m c t (ix2 p q), bsBlk_apply, h1]
  -- the array index under `(p, q)` of the block
  have ea : (((cfg0.win 6).blk t).view.emb (ix2 p q)) (0 : Fin 2) = f4096 (1024 * (t.val / 16) + p.val) :=
    Fin.ext (by show win0_6.index t (0 : Fin 2) * 1024 + 1 * p.val = (1024 * (t.val / 16) + p.val) % 4096; omega)
  have eb : (((cfg0.win 6).blk t).view.emb (ix2 p q)) (1 : Fin 2) = f4096 (1024 * (t.val / 4 % 4) + q.val) :=
    Fin.ext (by show win0_6.index t (1 : Fin 2) * 1024 + 1 * q.val = (1024 * (t.val / 4 % 4) + q.val) % 4096; omega)
  show _ = (0 + ∑ s ∈ Finset.range 4, tile (argX m c) (argP m c) (argS m c) (argZ m c)
      ((((cfg0.win 6).blk t).view.emb (ix2 p q)) (0 : Fin 2)) ((((cfg0.win 6).blk t).view.emb (ix2 p q)) (1 : Fin 2)) s)
    + argB m c (ix1 ((((cfg0.win 6).blk t).view.emb (ix2 p q)) (1 : Fin 2)))
  rw [ea, eb]
  refine congrArg₂ (· + ·) (congrArg (0 + ·) (Finset.sum_congr rfl fun s hs => ?_)) rfl
  have hs4 : s < 4 := Finset.mem_range.mp hs
  unfold tileAt
  have e0 : (4 * (t.val / 4) + s) / 16 = t.val / 16 := by omega
  have e1 : (4 * (t.val / 4) + s) / 4 % 4 = t.val / 4 % 4 := by omega
  have e2 : (4 * (t.val / 4) + s) % 4 = s := by omega
  rw [e0, e1, e2]

/-- An index of the result array is in point `t`'s block iff each coordinate is in the block's range on its axis. -/
theorem mem_blk (t : Fin cfg0.N) (i : S4096x4096.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v7).slice (win0_6.rect t)).set ↔ _
  rw [View.set_slice_whole, Rect.mem_set_unit]
  exact Iff.rfl

/-- Every entry of the result array lies in the block written back by the last point of the run of its block. -/
theorem cover (i : S4096x4096.Idx) : ∃ t : Fin cfg0.N, (cfg0.win 6).flush t = true ∧ i ∈ ((cfg0.win 6).blk t).view.set := by
  have hi0 : (i 0).val < 4096 := (i 0).isLt
  have hi1 : (i 1).val < 4096 := (i 1).isLt
  have hN : cfg0.N = 64 := N_0
  let t : Fin cfg0.N := ⟨16 * ((i 0).val / 1024) + 4 * ((i 1).val / 1024) + 3, by rw [hN]; omega⟩
  have htv : t.val = 16 * ((i 0).val / 1024) + 4 * ((i 1).val / 1024) + 3 := rfl
  obtain ⟨o0, o1⟩ := idx_o t
  refine ⟨t, (flush0_6 t).mpr (by omega), ?_⟩
  rw [mem_blk]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

/-- THE RESULT ARRAY after the run is the layer. -/
theorem final (c : Dev nD) : (dats m 0 c).arrAt 6 cfg0.N = result m c :=
  (dats m 0 c).arrAt_eq_of_cover 6 (result m c) (fun t hf => flushed_eq m c t ((flush0_6 t).mp hf)) cover

/-- The kernel's run: it terminates without fault, the result array holds the layer, the arguments are unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Fold

end
-- ==== Proof.RefValue.lean ====
/-
  The reference program computes the layer.

  The program unpacks each packed word into its low nibble (the word masked with fifteen) and its high nibble (the word
  shifted right by four, arithmetically, then masked), stacks the two planes on a new middle axis and flattens
  [2048, 2, 4096] to [4096, 4096]: weight row `k` is packed row `k / 2`, the low plane for even `k` and the high plane for
  odd `k`. Scales and zero points are repeated 32 times along the rows ([128, 4096] to [128, 32, 4096] to [4096, 4096]), so
  row `k` reads their row `k / 32`. The weight is scale · (nibble − zero), the product contracts the second axis of the
  input with the first of the weight, and the bias is added along rows. Each step is read at one index; what is left
  is arithmetic on row-major positions, and at 32 bits the arithmetic shift is one word whatever unit performs it.
-/
import proofs.«423189_j47296179864027_3_alg».proof.Proof.Gen.ReferenceIdeal.Read
import proofs.«423189_j47296179864027_3_alg».proof.Proof.Spec
import Idealize.ShloMosaic.Lib.KernelVsHost

noncomputable section
namespace Cert.ReferenceIdeal.RefValue
open Cert.ReferenceIdeal Cert.ReferenceIdeal.Gen Idealize.ShloMosaic Idealize.ShloMosaic.TcCoe Idealize.ShloMosaic.ValueIdx
open Cert.ReferenceIdeal.Read

/-! ## The two nibble planes and their stacking -/

/-- The low-nibble plane at packed row `r`, column `n`: the word masked with fifteen. -/
theorem low_plane (x1 : IVec S2048x4096 32) (r : Fin 2048) (n : Fin 4096) :
    val_main_v6 (F := Ideal) x1 (ix3 r (0 : Fin 1) n) = IntOp.andi (x1 (ix2 r n)) 15#32 := by
  rw [val_main_v6_apply, val_main_v1_apply, val_main_v0_apply, val_main_c_apply]
  have e : idx_main_v6 (ix3 r (0 : Fin 1) n) = ix2 r n := by
    funext a; match a with | ⟨0, _⟩ => rfl | ⟨1, _⟩ => rfl
  rw [e]

/-- The high-nibble plane at packed row `r`, column `n`: the word shifted right by four, then masked with fifteen. -/
theorem high_plane (x1 : IVec S2048x4096 32) (r : Fin 2048) (n : Fin 4096) :
    val_main_v7 (F := Ideal) x1 (ix3 r (0 : Fin 1) n) = IntOp.andi (IntOp.shrsi .host (x1 (ix2 r n)) 4#32) 15#32 := by
  rw [val_main_v7_apply, val_main_v5_apply, val_main_v3_apply, val_main_v2_apply, val_main_c_0_apply, val_main_v4_apply,
    val_main_c_1_apply]
  have e : idx_main_v7 (ix3 r (0 : Fin 1) n) = ix2 r n := by
    funext a; match a with | ⟨0, _⟩ => rfl | ⟨1, _⟩ => rfl
  rw [e]

/-- Position zero of the stacking axis is the low plane. -/
theorem stacked_low (x1 : IVec S2048x4096 32) (r : Fin 2048) (n : Fin 4096) :
    val_main_v8 (F := Ideal) x1 (ix3 r (0 : Fin 2) n) = IntOp.andi (x1 (ix2 r n)) 15#32 := by
  unfold val_main_v8
  refine (concatenate_pair_apply_left (1 : Fin S2048x2x4096.rank) _ _
    concatenates_S2048x1x4096_S2048x1x4096_S2048x2x4096_d1 (ix3 r (0 : Fin 2) n) rfl (ix3 r (0 : Fin 1) n) ?_).trans
    (low_plane x1 r n)
  intro b
  match b with
  | ⟨0, _⟩ => rfl
  | ⟨1, _⟩ => rfl
  | ⟨2, _⟩ => rfl

/-- Position one of the stacking axis is the high plane. -/
theorem stacked_high (x1 : IVec S2048x4096 32) (r : Fin 2048) (n : Fin 4096) :
    val_main_v8 (F := Ideal) x1 (ix3 r (1 : Fin 2) n) = IntOp.andi (IntOp.shrsi .host (x1 (ix2 r n)) 4#32) 15#32 := by
  unfold val_main_v8
  refine (concatenate_pair_apply_right (1 : Fin S2048x2x4096.rank) _ _
    concatenates_S2048x1x4096_S2048x1x4096_S2048x2x4096_d1 (ix3 r (1 : Fin 2) n) rfl rfl (ix3 r (0 : Fin 1) n) ?_ ?_).trans
    (high_plane x1 r n)
  · intro b hb
    match b, hb with
    | ⟨0, _⟩, _ => rfl
    | ⟨1, _⟩, hb => exact absurd rfl hb
    | ⟨2, _⟩, _ => rfl
  · rfl

/-! ## The reshapes: which packed row, scale row and zero row a weight row reads -/

/-- An even weight row `k` reads the low nibble of packed row `k / 2`. -/
theorem packed_even (x1 : IVec S2048x4096 32) (k b : Fin 4096) (h : k.val % 2 = 0) :
    val_main_v9 (F := Ideal) x1 (ix2 k b) = IntOp.andi (x1 (ix2 (Cert.Quant4.f2048 (k.val / 2)) b)) 15#32 := by
  rw [val_main_v9_apply]
  have e : idx_main_v9 (ix2 k b) = ix3 (Cert.Quant4.f2048 (k.val / 2)) (0 : Fin 2) b := by
    funext a; apply Fin.ext
    have hk := k.isLt; have hb := b.isLt
    match a with
    | ⟨0, _⟩ => show (k.val * 4096 + b.val) / 8192 = (k.val / 2) % 2048; omega
    | ⟨1, _⟩ => show (k.val * 4096 + b.val) / 4096 % 2 = 0; omega
    | ⟨2, _⟩ => show (k.val * 4096 + b.val) % 4096 = b.val; omega
  rw [e, stacked_low]

/-- An odd weight row `k` reads the high nibble of packed row `k / 2`. -/
theorem packed_odd (x1 : IVec S2048x4096 32) (k b : Fin 4096) (h : k.val % 2 = 1) :
    val_main_v9 (F := Ideal) x1 (ix2 k b)
      = IntOp.andi (IntOp.shrsi .host (x1 (ix2 (Cert.Quant4.f2048 (k.val / 2)) b)) 4#32) 15#32 := by
  rw [val_main_v9_apply]
  have e : idx_main_v9 (ix2 k b) = ix3 (Cert.Quant4.f2048 (k.val / 2)) (1 : Fin 2) b := by
    funext a; apply Fin.ext
    have hk := k.isLt; have hb := b.isLt
    match a with
    | ⟨0, _⟩ => show (k.val * 4096 + b.val) / 8192 = (k.val / 2) % 2048; omega
    | ⟨1, _⟩ => show (k.val * 4096 + b.val) / 4096 % 2 = 1; omega
    | ⟨2, _⟩ => show (k.val * 4096 + b.val) % 4096 = b.val; omega
  rw [e, stacked_high]

/-- The converted nibble of weight row `k` is the specification's. -/
theorem nibble_eq (x1 : IVec S2048x4096 32) (k b : Fin 4096) :
    FloatOps.sitofp (F := Ideal) .f32 (val_main_v9 (F := Ideal) x1 (ix2 k b)) = Cert.Quant4.nibble x1 k.val b := by
  unfold Cert.Quant4.nibble
  by_cases h : k.val % 2 = 0
  · rw [if_pos h, packed_even x1 k b h]; rfl
  · rw [if_neg h, packed_odd x1 k b (by omega), shrsi_unit .host .vector]; rfl

/-- The repeated scales: weight row `k` reads row `k / 32`. -/
theorem scale_eq (x2 : FVec Ideal S128x4096 .f32) (k b : Fin 4096) :
    val_main_v12 (F := Ideal) x2 (ix2 k b) = x2 (ix2 (Cert.Quant4.f128 (k.val / 32)) b) := by
  rw [val_main_v12_apply, val_main_v11_apply]
  have e : idx_main_v11 (idx_main_v12 (ix2 k b)) = ix2 (Cert.Quant4.f128 (k.val / 32)) b := by
    funext a; apply Fin.ext
    have hk := k.isLt; have hb := b.isLt
    match a with
    | ⟨0, _⟩ => show (k.val * 4096 + b.val) / 131072 = (k.val / 32) % 128; omega
    | ⟨1, _⟩ => show (k.val * 4096 + b.val) % 4096 = b.val; omega
  rw [e]

/-- The repeated zero points: weight row `k` reads row `k / 32`. -/
theorem zero_eq (x3 : FVec Ideal S128x4096 .f32) (k b : Fin 4096) :
    val_main_v14 (F := Ideal) x3 (ix2 k b) = x3 (ix2 (Cert.Quant4.f128 (k.val / 32)) b) := by
  rw [val_main_v14_apply, val_main_v13_apply]
  have e : idx_main_v13 (idx_main_v14 (ix2 k b)) = ix2 (Cert.Quant4.f128 (k.val / 32)) b := by
    funext a; apply Fin.ext
    have hk := k.isLt; have hb := b.isLt
    match a with
    | ⟨0, _⟩ => show (k.val * 4096 + b.val) / 131072 = (k.val / 32) % 128; omega
    | ⟨1, _⟩ => show (k.val * 4096 + b.val) % 4096 = b.val; omega
  rw [e]

/-- The dequantized weight matrix of the program is the specification's. -/
theorem weight_eq (x1 : IVec S2048x4096 32) (x2 x3 : FVec Ideal S128x4096 .f32) (k b : Fin 4096) :
    val_main_v16 (F := Ideal) x1 x2 x3 (ix2 k b) = Cert.Quant4.weight x1 x2 x3 k.val b := by
  rw [val_main_v16_apply, val_main_v15_apply, val_main_v10_apply, scale_eq, zero_eq, nibble_eq]
  rfl

/-! ## The product and the bias -/

/-- The program's result is the layer `Σ_k X[a, k] · W[k, n] + B[n]`. -/
theorem result_eq (x0 : FVec Ideal S4096x4096 .f32) (x1 : IVec S2048x4096 32) (x2 x3 : FVec Ideal S128x4096 .f32) (x4 : FVec Ideal S4096 .f32) :
    Cert.ReferenceIdeal.Read.val_main_v20 (F := Ideal) x0 x1 x2 x3 x4 = Cert.Quant4.G x0 x1 x2 x3 x4 := by
  funext i
  obtain ⟨a, b, rfl⟩ : ∃ a b, i = ix2 a b := ⟨i 0, i 1, eq_ix2 i⟩
  rw [val_main_v20_apply, val_main_v17_apply, val_main_v19_apply, val_main_v18_apply]
  have eb : idx_main_v18 (idx_main_v19 (ix2 a b)) = ix1 b := by
    funext d; match d with | ⟨0, _⟩ => rfl
  rw [eb]
  unfold Cert.Quant4.G
  refine congrArg₂ (· + ·) (Finset.sum_congr rfl fun k _ => ?_) rfl
  have el : lidx_main_v17 (ix2 a b) k = ix2 a (Cert.Quant4.f4096 k.val) := by
    funext d; apply Fin.ext
    have hk := k.isLt
    match d with
    | ⟨0, _⟩ => rfl
    | ⟨1, _⟩ => show k.val = k.val % 4096; omega
  have er : ridx_main_v17 (ix2 a b) k = ix2 k b := by
    funext d; match d with | ⟨0, _⟩ => rfl | ⟨1, _⟩ => rfl
  rw [el, er, weight_eq]
  rfl

end Cert.ReferenceIdeal.RefValue
end
-- ==== Proof.lean ====
/-
  A linear layer with 4-bit quantized weights: the tiled kernel against the plain product.

  Both programs compute `out[a, n] = Σ_k X[a, k] · W[k, n] + B[n]` with `W[k, n] = S[k / 32, n] · (nibble(k, n) − Z[k / 32, n])`,
  the nibble of weight row `k` being the low (even `k`) or high (odd `k`) four bits of packed row `k / 2`.

  The reference forms the whole weight matrix and takes one product over all 4096 rows. The kernel splits `X` into its even
  and odd columns, walks the contraction in four blocks of 512 packed rows for each of sixteen output blocks, and at each
  step adds to a carried sum the even-column block times the low-nibble weights and the odd-column block times the
  high-nibble weights, starting from zero and adding the bias at the last step. On the extended reals a change of float
  format is the identity and a product into the zero block is a plain sum, so the kernel's result is the same terms
  grouped by blocks; regrouping a finite sum uses only that addition is commutative and associative, which holds for
  infinite entries too, so the precondition is never opened.

  The kernel's and the reference's runs, the frames, and the step-by-step reading of the reference are the generated
  modules; written here: what one grid point leaves (Pieces), its arithmetic at an element (Payload), the input blocks
  as entries of the arguments (Blocks), the accumulation over the grid and the tiling of the result (Fold), the
  reference's last stage as the layer (RefValue), the regrouping law (Spec), and this assembly.
-/
import proofs.«423189_j47296179864027_3_alg».proof.Defs
import proofs.«423189_j47296179864027_3_alg».proof.Proof.Gen.Kernel
import proofs.«423189_j47296179864027_3_alg».proof.Proof.Gen.Kernel.Skeleton
import proofs.«423189_j47296179864027_3_alg».proof.Proof.Gen.Kernel.Launch
import proofs.«423189_j47296179864027_3_alg».proof.Proof.Gen.Kernel.Points
import proofs.«423189_j47296179864027_3_alg».proof.Proof.Gen.Kernel.Frame
import proofs.«423189_j47296179864027_3_alg».proof.Proof.Gen.KernelIdeal
import proofs.«423189_j47296179864027_3_alg».proof.Proof.Gen.KernelIdeal.Skeleton
import proofs.«423189_j47296179864027_3_alg».proof.Proof.Gen.KernelIdeal.Launch
import proofs.«423189_j47296179864027_3_alg».proof.Proof.Gen.KernelIdeal.Points
import proofs.«423189_j47296179864027_3_alg».proof.Proof.Gen.KernelIdeal.Frame
import proofs.«423189_j47296179864027_3_alg».proof.Proof.Gen.ReferenceIdeal
import proofs.«423189_j47296179864027_3_alg».proof.Proof.Gen.Pre_finite_inputs
import proofs.«423189_j47296179864027_3_alg».proof.Proof.Gen.KernelIdeal.Value
import proofs.«423189_j47296179864027_3_alg».proof.Proof.Gen.ReferenceIdeal.Run
import proofs.«423189_j47296179864027_3_alg».proof.Proof.Gen.ReferenceIdeal.Read
import proofs.«423189_j47296179864027_3_alg».proof.Proof.Fold
import proofs.«423189_j47296179864027_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel [Cert.Kernel.Facts] [Cert.Pre_finite_inputs.Facts] : Cert.frame_Kernel :=
  fun m ρ _ => Cert.Kernel.Gen.frame m ρ

/-- So does the kernel read on the extended reals. -/
theorem frame_kernelIdeal [Cert.KernelIdeal.Facts] [Cert.Pre_finite_inputs.Facts] : Cert.frame_KernelIdeal :=
  fun m ρ _ => Cert.KernelIdeal.Gen.frame m ρ

/-- The reference is a straight line of array operations: its run, with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From arguments that agree, the kernel's result array is the layer grouped by blocks (its run, Fold) and the
    reference's is the layer in natural order (its run, RefValue): one function, by the regrouping law. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Fold.result m c, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq, (hagree c).1, (hagree c).2.1,
    (hagree c).2.2.1, (hagree c).2.2.2.1, (hagree c).2.2.2.2]
  exact (Cert.Quant4.Gk_eq_G _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
